-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048 .f32) (main_arg5 : FVec F S4096 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S4096x1 : Shape := ⟨2, ![4096, 1]⟩
abbrev S512x2048 : Shape := ⟨2, ![512, 2048]⟩
abbrev S1x512 : Shape := ⟨2, ![1, 512]⟩
abbrev S512x1 : Shape := ⟨2, ![512, 1]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096, .f32⟩
  | .hbm, ⟨6, _⟩ => ⟨S1x2048, .f32⟩
  | .hbm, ⟨7, _⟩ => ⟨S1x2048, .f32⟩
  | .hbm, ⟨8, _⟩ => ⟨S4096x1, .f32⟩
  | .hbm, ⟨9, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x512, .f32⟩
  | .local _ .vmem, ⟨13, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2048_S1x2048 : S2048.ShapeCasts S1x2048
  shapeCasts_S4096_S4096x1 : S4096.ShapeCasts S4096x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x2048.size a
  hwx0_6 : ∀ i : grid0.Coords, EltTy.bits .f32 = 32 ∨ (Rect.block (s := S4096x2048) S512x512.size (cc0_transform_6 i) (hinb0_6 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096, .f32⟩
  | .hbm, ⟨6, _⟩ => ⟨S2048x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The function both programs compute. With `x` the `4096×2048` batch of inputs, `w` the `2048×2048` weights and `g`
  the `2048×2048` previous gradient (both stored one output feature per row), `b` and `pb` the bias and the previous bias
  gradient, and `lr` one learning rate per sample, entry `(p, q)` of the result is

      (∑ₖ x(p,k)·w(q,k) + b(q))  −  lr(p) · (∑ₖ x(p,k)·g(q,k) + pb(q)),

  a dense layer's output minus the sample's learning rate times the same layer taken with the gradient in place of the
  weights. Everything is on the extended reals.
-/
import Idealize.ShloMosaic.PureOps.Ideal
import Idealize.ShloMosaic.Lib.ValueIdx

noncomputable section

open scoped BigOperators

namespace Cert.DenseStep

open Idealize.ShloMosaic Idealize.ShloMosaic.ValueIdx

/-- Entry `(p, q)`: the layer's output at sample `p` and feature `q`, less `lr(p)` times the gradient layer's. -/
def entry (x : (⟨2, ![4096, 2048]⟩ : Shape).Idx → EReal) (w : (⟨2, ![2048, 2048]⟩ : Shape).Idx → EReal)
    (b : (⟨1, ![2048]⟩ : Shape).Idx → EReal) (g : (⟨2, ![2048, 2048]⟩ : Shape).Idx → EReal)
    (pb : (⟨1, ![2048]⟩ : Shape).Idx → EReal) (lr : (⟨1, ![4096]⟩ : Shape).Idx → EReal)
    (p : Fin 4096) (q : Fin 2048) : EReal :=
  ((∑ k : Fin 2048, x (ix2 p k) * w (ix2 q k)) + b (ix1 q))
    - lr (ix1 p) * ((∑ k : Fin 2048, x (ix2 p k) * g (ix2 q k)) + pb (ix1 q))

/-- The whole result array, index by index. -/
def G (x : (⟨2, ![4096, 2048]⟩ : Shape).Idx → EReal) (w : (⟨2, ![2048, 2048]⟩ : Shape).Idx → EReal)
    (b : (⟨1, ![2048]⟩ : Shape).Idx → EReal) (g : (⟨2, ![2048, 2048]⟩ : Shape).Idx → EReal)
    (pb : (⟨1, ![2048]⟩ : Shape).Idx → EReal) (lr : (⟨1, ![4096]⟩ : Shape).Idx → EReal) :
    (⟨2, ![4096, 2048]⟩ : Shape).Idx → EReal :=
  fun i => entry x w b g pb lr (i 0) (i 1)

theorem G_ix2 (x : (⟨2, ![4096, 2048]⟩ : Shape).Idx → EReal) (w : (⟨2, ![2048, 2048]⟩ : Shape).Idx → EReal)
    (b : (⟨1, ![2048]⟩ : Shape).Idx → EReal) (g : (⟨2, ![2048, 2048]⟩ : Shape).Idx → EReal)
    (pb : (⟨1, ![2048]⟩ : Shape).Idx → EReal) (lr : (⟨1, ![4096]⟩ : Shape).Idx → EReal) (p : Fin 4096) (q : Fin 2048) :
    G x w b g pb lr (ix2 p q) = entry x w b g pb lr p q := rfl

end Cert.DenseStep

end
-- ==== Proof.RefValue.lean ====
/-
  The reference, read at an entry, is the specification. The reference transposes the weights (and the gradient)
  and contracts the transposed matrix's FIRST axis, so entry `(p, q)` of its product pairs `x(p,k)` with the
  transposed matrix at `(k, q)`, which is the stored matrix at `(q, k)`: row `p` of the inputs against row `q` of
  the weights. The bias reaches entry `(p, q)` through two broadcasts as its entry `q`, the learning rate as its entry
  `p`. What remains is the same additions, the same product and the same subtraction, in the same order.
-/
import proofs.«182008_j88252987998616_1_alg».proof.Proof.Gen.ReferenceIdeal.Read
import proofs.«182008_j88252987998616_1_alg».proof.Proof.Spec

noncomputable section

open scoped BigOperators

namespace Cert.DenseStep.Ref

open Cert.ReferenceIdeal Cert.ReferenceIdeal.Read Idealize.ShloMosaic Idealize.ShloMosaic.ValueIdx

/-- The left operand of either product is read along row `p`. -/
theorem lidx1 (p : Fin 4096) (q k : Fin 2048) : lidx_main_v1 (ix2 p q) k = ix2 p k :=
  funext fun a => Fin.ext (by match a with | ⟨0, _⟩ => rfl | ⟨1, _⟩ => rfl)

theorem lidx6 (p : Fin 4096) (q k : Fin 2048) : lidx_main_v6 (ix2 p q) k = ix2 p k :=
  funext fun a => Fin.ext (by match a with | ⟨0, _⟩ => rfl | ⟨1, _⟩ => rfl)

/-- The transposed weights at `(k, q)` are the stored weights at `(q, k)`. -/
theorem ridx1 (p : Fin 4096) (q k : Fin 2048) : idx_main_v0 (ridx_main_v1 (ix2 p q) k) = ix2 q k :=
  funext fun a => Fin.ext (by match a with | ⟨0, _⟩ => rfl | ⟨1, _⟩ => rfl)

theorem ridx6 (p : Fin 4096) (q k : Fin 2048) : idx_main_v5 (ridx_main_v6 (ix2 p q) k) = ix2 q k :=
  funext fun a => Fin.ext (by match a with | ⟨0, _⟩ => rfl | ⟨1, _⟩ => rfl)

/-- A vector laid along the rows reaches entry `(p, q)` as its entry `q`. -/
theorem bidx3 (p : Fin 4096) (q : Fin 2048) : idx_main_v2 (idx_main_v3 (ix2 p q)) = ix1 q :=
  funext fun a => Fin.ext (by match a with | ⟨0, _⟩ => rfl)

theorem bidx8 (p : Fin 4096) (q : Fin 2048) : idx_main_v7 (idx_main_v8 (ix2 p q)) = ix1 q :=
  funext fun a => Fin.ext (by match a with | ⟨0, _⟩ => rfl)

/-- The learning rates, one per sample, reach entry `(p, q)` as entry `p`. -/
theorem lridx (p : Fin 4096) (q : Fin 2048) : idx_main_v10 (idx_main_v11 (ix2 p q)) = ix1 p :=
  funext fun a => Fin.ext (by match a with | ⟨0, _⟩ => rfl)

/-- The reference's last stage is the specification, index by index. -/
theorem stage_eq (x : (⟨S4096x2048, .f32⟩ : BufTy).Contents (Elt Ideal)) (w : (⟨S2048x2048, .f32⟩ : BufTy).Contents (Elt Ideal))
    (b : (⟨S2048, .f32⟩ : BufTy).Contents (Elt Ideal)) (g : (⟨S2048x2048, .f32⟩ : BufTy).Contents (Elt Ideal))
    (pb : (⟨S2048, .f32⟩ : BufTy).Contents (Elt Ideal)) (lr : (⟨S4096, .f32⟩ : BufTy).Contents (Elt Ideal)) :
    val_main_v13 (F := Ideal) x w b g pb lr = G x w b g pb lr := by
  funext i
  obtain ⟨p, q, rfl⟩ : ∃ (p : Fin 4096) (q : Fin 2048), i = ix2 p q := ⟨i 0, i 1, eq_ix2 i⟩
  rw [val_main_v13_apply, val_main_v4_apply, val_main_v12_apply, val_main_v9_apply, val_main_v1_apply, val_main_v6_apply,
    val_main_v3_apply, val_main_v2_apply, val_main_v8_apply, val_main_v7_apply, val_main_v11_apply, val_main_v10_apply]
  simp only [val_main_v0_apply, val_main_v5_apply, lidx1, lidx6, ridx1, ridx6, bidx3, bidx8, lridx,
    Ideal.addf_def, Ideal.subf_def, Ideal.mulf_def]
  rfl

end Cert.DenseStep.Ref

end
-- ==== Proof.LibRowDot.lean ====
/-
  General facts about a product of two matrices that are both stored row by row — an `M×K` operand against an
  `N×K` operand, contracted over the second axis of each, so that entry `(p, j)` pairs row `p` of the left with row
  `j` of the right — on the extended reals: the product read at one entry as a sum over the shared axis; and a
  vector `[a]` viewed as a column `[a, 1]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibRowDot

open Idealize.ShloMosaic Idealize.ShloMosaic.ValueIdx

/-- The contraction sum of an `M×K` by `N×K` product at entry `(p, j)` is `∑ₖ l(p,k)·r(j,k)`: the one contracted
    axis is re-indexed by its coordinate; the left operand is read along row `p` and the right along row `j` (the four
    hypotheses say so of the dimension numbers, coordinate by coordinate). -/
theorem sum_rows {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (p : Fin M) (j : Fin N) :
    ∑ q : D.contr.Idx, l (D.lhsIdx (ix2 p j) q) * r (D.rhsIdx (ix2 p j) q) = ∑ k : Fin K, l (ix2 p k) * r (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- Such a product accumulated into zeros, read at entry `(p, j)`. The operands may be of any float formats: on the
    extended reals a format is no restriction. -/
theorem matmul_rows_apply {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision)
    (l : FVec Ideal ⟨2, ![M, K]⟩ φ₁) (r : FVec Ideal ⟨2, ![N, K]⟩ φ₂) (p : Fin M) (j : Fin N) :
    FloatOps.matmul D prec l r (constant (F := Ideal) ⟨2, ![M, N]⟩ .f32 0x00000000#32) (ix2 p j)
      = ∑ k : Fin K, l (ix2 p k) * r (ix2 j k) := by
  rw [Ideal.matmul_constant_zero_apply]
  exact sum_rows D hr hs hl0 hl1 hr0 hr1 l r p j

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibRowDot

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Body.lean ====
/-
  What the kernel's body stores at entry `(p, q)` of its `512×512` output block, as a function of the six blocks it
  loads: a `512×2048` block of inputs `x`, `512×2048` blocks of weights `w` and of the gradient `g` (each row an output
  feature), `1×512` rows of the two bias vectors `b`, `pb`, and a `512×1` column of learning rates `lr`:

      (∑ₖ x(p,k)·w(q,k) + b(0,q))  −  lr(p,0) · (∑ₖ x(p,k)·g(q,k) + pb(0,q)).

  The body narrows its three big operands to a shorter float format before the products; on the extended reals a change
  of format is the identity. Both products contract the SECOND axis of both operands (rows against rows) and accumulate
  into zeros. The bias rows are broadcast down the rows, the learning-rate column across the columns.
-/
import proofs.«182008_j88252987998616_1_alg».proof.Proof.Gen.KernelIdeal.Skeleton
import proofs.«182008_j88252987998616_1_alg».proof.Proof.LibRowDot
import proofs.«182008_j88252987998616_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseStep.Body

open Cert.KernelIdeal Cert.KernelIdeal.Gen Idealize.ShloMosaic Idealize.ShloMosaic.ValueIdx

/-! The body's product reads its left operand at (row of the entry, contracted coordinate) and its right operand at
    (column of the entry, contracted coordinate): the four coordinate facts of its dimension numbers. -/

theorem lhs_rows_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl

theorem lhs_rows_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q

theorem rhs_rows_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl

theorem rhs_rows_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The body's product of two loaded blocks into zeros, at entry `(p, q)`: row `p` of the left against row `q` of the
    right. -/
theorem rows_product (l r : FVec Ideal S512x2048 .bf16) (p q : Fin 512) :
    matmul dot_S512x2048_S512x2048_S512x512_1_1_0_0_n_n none l r (constant (F := Ideal) S512x512 .f32 0x00000000#32) (ix2 p q)
      = ∑ k : Fin 2048, l (ix2 p k) * r (ix2 q k) :=
  Cert.LibRowDot.matmul_rows_apply dot_S512x2048_S512x2048_S512x512_1_1_0_0_n_n rfl rfl
    lhs_rows_0 lhs_rows_1 rhs_rows_0 rhs_rows_1 none l r p q

/-- The body's stored value at entry `(p, q)` of the block. -/
theorem stored_apply (x w g : Vec Ideal S512x2048 .f32) (b pb : Vec Ideal S1x512 .f32) (lr : Vec Ideal S512x1 .f32)
    (p q : Fin 512) :
    k0_pay1 (F := Ideal) x w g b pb lr (ix2 p q)
      = ((∑ k : Fin 2048, x (ix2 p k) * w (ix2 q k)) + b (ix2 (0 : Fin 1) q))
        - lr (ix2 p (0 : Fin 1)) * ((∑ k : Fin 2048, x (ix2 p k) * g (ix2 q k)) + pb (ix2 (0 : Fin 1) q)) := by
  unfold k0_pay1
  rw [subf_apply, addf_apply, mulf_apply, addf_apply, rows_product, rows_product,
    shapeCast_self, shapeCast_self, shapeCast_self,
    broadcastTo_1b_ab_apply, broadcastTo_1b_ab_apply, Cert.LibPlainDot.broadcastTo_a1_ab_apply]
  rfl

end Cert.DenseStep.Body

end
-- ==== Proof.Blocks.lean ====
/-
  Where each block the body loads sits in the argument arrays. The grid is `8×4`: point `t` has a row-block index (the
  output window's block index on axis 0, `0 … 7`) and a column-block index (on axis 1, `0 … 3`), and writes the
  `512×512` output block at those indices. At that point the inputs' window is the row-block of `x` (all `2048`
  columns); the weights' and the gradient's windows are the block of `512` ROWS at the COLUMN-block index (all `2048`
  columns): output features are rows of the weights; the two bias rows are the `512` entries at the column-block index;
  the learning-rate column is the `512` entries at the row-block index. So with `p = 512·(row block) + a` and
  `q = 512·(column block) + b`, entry `(a, k)` of the inputs' block is `x(p, k)`, entry `(b, k)` of the weights' block is
  `w(q, k)`, entry `(0, b)` of a bias row is `bias(q)`, and entry `(a, 0)` of the learning-rate column is `lr(p)`.
  The bias vectors and the learning rates reach the kernel through reshapes done before it: `[2048]` viewed as one row
  `[1, 2048]`, `[4096]` viewed as one column `[4096, 1]`.
-/
import proofs.«182008_j88252987998616_1_alg».proof.Proof.Gen.KernelIdeal.Frame
import proofs.«182008_j88252987998616_1_alg».proof.Proof.LibRowDot
import Idealize.ShloMosaic.Lib.Pipeline.Value
import Idealize.ShloMosaic.Lib.StableHlo.Run
import Idealize.ShloMosaic.Lib.ValueIdx
import Idealize.ShloMosaic.Lib.ValueLayout

noncomputable section

namespace Cert.DenseStep.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps, decided over the 32 grid points -/

theorem idx_x : ∀ t : Fin cfg0.N, win0_0.index t (0 : Fin 2) = win0_6.index t (0 : Fin 2) ∧ win0_0.index t (1 : Fin 2) = 0 :=
  (by decide +kernel : ∀ t : Fin grid0.N, _)

theorem idx_w : ∀ t : Fin cfg0.N, win0_1.index t (0 : Fin 2) = win0_6.index t (1 : Fin 2) ∧ win0_1.index t (1 : Fin 2) = 0 :=
  (by decide +kernel : ∀ t : Fin grid0.N, _)

theorem idx_g : ∀ t : Fin cfg0.N, win0_2.index t (0 : Fin 2) = win0_6.index t (1 : Fin 2) ∧ win0_2.index t (1 : Fin 2) = 0 :=
  (by decide +kernel : ∀ t : Fin grid0.N, _)

theorem idx_b : ∀ t : Fin cfg0.N, win0_3.index t (0 : Fin 2) = 0 ∧ win0_3.index t (1 : Fin 2) = win0_6.index t (1 : Fin 2) :=
  (by decide +kernel : ∀ t : Fin grid0.N, _)

theorem idx_pb : ∀ t : Fin cfg0.N, win0_4.index t (0 : Fin 2) = 0 ∧ win0_4.index t (1 : Fin 2) = win0_6.index t (1 : Fin 2) :=
  (by decide +kernel : ∀ t : Fin grid0.N, _)

theorem idx_lr : ∀ t : Fin cfg0.N, win0_5.index t (0 : Fin 2) = win0_6.index t (0 : Fin 2) ∧ win0_5.index t (1 : Fin 2) = 0 :=
  (by decide +kernel : ∀ t : Fin grid0.N, _)

/-- The output's block indices stay in the `8×4` box, -/
theorem idx_out : ∀ t : Fin cfg0.N, win0_6.index t (0 : Fin 2) ≤ 7 ∧ win0_6.index t (1 : Fin 2) ≤ 3 :=
  (by decide +kernel : ∀ t : Fin grid0.N, _)

/-- and every block of the box is some point's. -/
theorem idx_onto : ∀ (q0 : Fin 8) (q1 : Fin 4), ∃ t : Fin cfg0.N, win0_6.index t = ![q0.val, q1.val] :=
  (by decide +kernel : ∀ (q0 : Fin 8) (q1 : Fin 4), ∃ t : Fin grid0.N, win0_6.index t = ![q0.val, q1.val])

/-! ## The reshaped vectors as the kernel finds them -/

/-- The bias, as one row. -/
theorem bias_row (c : Dev nD) :
    (V m c main_v0 : S1x2048.Idx → EReal) = shapeCast S1x2048 (m ((c : Thread nD τ).loc main_arg2)) shapeCasts_S2048_S1x2048 := by
  dsimp only [V, hostOps0]; after_results; rfl

/-- The previous bias gradient, as one row. -/
theorem pbias_row (c : Dev nD) :
    (V m c main_v1 : S1x2048.Idx → EReal) = shapeCast S1x2048 (m ((c : Thread nD τ).loc main_arg4)) shapeCasts_S2048_S1x2048 := by
  dsimp only [V, hostOps0]; after_results; rfl

/-- The learning rates, as one column. -/
theorem lr_col (c : Dev nD) :
    (V m c main_v2 : S4096x1.Idx → EReal) = shapeCast S4096x1 (m ((c : Thread nD τ).loc main_arg5)) shapeCasts_S4096_S4096x1 := by
  dsimp only [V, hostOps0]; after_results; rfl

/-! ## Each loaded block's entry as an entry of an argument -/

/-- Entry `(a, k)` of the inputs' block is `x(p, k)`, `p` the row `a` of the point's row block. -/
theorem x_block (c : Dev nD) (t : Fin cfg0.N) (a : Fin 512) (k : Fin 2048) (p : Fin 4096)
    (hp : p.val = win0_6.index t (0 : Fin 2) * 512 + a.val) :
    (iblk m c 0 t : Vec Ideal S512x2048 .f32) (ix2 a k)
      = (m ((c : Thread nD τ).loc main_arg0) : S4096x2048.Idx → EReal) (ix2 p k) := by
  obtain ⟨e0, e1⟩ := idx_x t
  show (V m c main_arg0 : S4096x2048.Idx → EReal) (((cfg0.win 0).blk t).view.emb (ix2 a k)) = _
  rw [V_main_arg0]
  refine congrArg (m ((c : Thread nD τ).loc main_arg0) : S4096x2048.Idx → EReal) (funext fun ax => Fin.ext ?_)
  match ax with
  | ⟨0, _⟩ => show win0_0.index t (0 : Fin 2) * 512 + 1 * a.val = p.val; omega
  | ⟨1, _⟩ => show win0_0.index t (1 : Fin 2) * 2048 + 1 * k.val = k.val; omega

/-- Entry `(b, k)` of the weights' block is `w(q, k)`, `q` the row `b` of the point's COLUMN block. -/
theorem w_block (c : Dev nD) (t : Fin cfg0.N) (b : Fin 512) (k : Fin 2048) (q : Fin 2048)
    (hq : q.val = win0_6.index t (1 : Fin 2) * 512 + b.val) :
    (iblk m c 1 t : Vec Ideal S512x2048 .f32) (ix2 b k)
      = (m ((c : Thread nD τ).loc main_arg1) : S2048x2048.Idx → EReal) (ix2 q k) := by
  obtain ⟨e0, e1⟩ := idx_w t
  show (V m c main_arg1 : S2048x2048.Idx → EReal) (((cfg0.win 1).blk t).view.emb (ix2 b k)) = _
  rw [V_main_arg1]
  refine congrArg (m ((c : Thread nD τ).loc main_arg1) : S2048x2048.Idx → EReal) (funext fun ax => Fin.ext ?_)
  match ax with
  | ⟨0, _⟩ => show win0_1.index t (0 : Fin 2) * 512 + 1 * b.val = q.val; omega
  | ⟨1, _⟩ => show win0_1.index t (1 : Fin 2) * 2048 + 1 * k.val = k.val; omega

/-- The same for the gradient's block. -/
theorem g_block (c : Dev nD) (t : Fin cfg0.N) (b : Fin 512) (k : Fin 2048) (q : Fin 2048)
    (hq : q.val = win0_6.index t (1 : Fin 2) * 512 + b.val) :
    (iblk m c 2 t : Vec Ideal S512x2048 .f32) (ix2 b k)
      = (m ((c : Thread nD τ).loc main_arg3) : S2048x2048.Idx → EReal) (ix2 q k) := by
  obtain ⟨e0, e1⟩ := idx_g t
  show (V m c main_arg3 : S2048x2048.Idx → EReal) (((cfg0.win 2).blk t).view.emb (ix2 b k)) = _
  rw [V_main_arg3]
  refine congrArg (m ((c : Thread nD τ).loc main_arg3) : S2048x2048.Idx → EReal) (funext fun ax => Fin.ext ?_)
  match ax with
  | ⟨0, _⟩ => show win0_2.index t (0 : Fin 2) * 512 + 1 * b.val = q.val; omega
  | ⟨1, _⟩ => show win0_2.index t (1 : Fin 2) * 2048 + 1 * k.val = k.val; omega

/-- Entry `(0, b)` of the bias row's block is `bias(q)`. -/
theorem b_block (c : Dev nD) (t : Fin cfg0.N) (b : Fin 512) (q : Fin 2048)
    (hq : q.val = win0_6.index t (1 : Fin 2) * 512 + b.val) :
    (iblk m c 3 t : Vec Ideal S1x512 .f32) (ix2 (0 : Fin 1) b)
      = (m ((c : Thread nD τ).loc main_arg2) : S2048.Idx → EReal) (ix1 q) := by
  obtain ⟨e0, e1⟩ := idx_b t
  show (V m c main_v0 : S1x2048.Idx → EReal) (((cfg0.win 3).blk t).view.emb (ix2 (0 : Fin 1) b)) = _
  rw [bias_row, ← shapeCast_a_1a_apply (m ((c : Thread nD τ).loc main_arg2)) shapeCasts_S2048_S1x2048 (0 : Fin 1) q]
  refine congrArg (shapeCast S1x2048 (m ((c : Thread nD τ).loc main_arg2)) shapeCasts_S2048_S1x2048 : S1x2048.Idx → EReal)
    (funext fun ax => Fin.ext ?_)
  match ax with
  | ⟨0, _⟩ => show win0_3.index t (0 : Fin 2) * 1 + 1 * 0 = 0; omega
  | ⟨1, _⟩ => show win0_3.index t (1 : Fin 2) * 512 + 1 * b.val = q.val; omega

/-- The same for the previous bias gradient's row. -/
theorem pb_block (c : Dev nD) (t : Fin cfg0.N) (b : Fin 512) (q : Fin 2048)
    (hq : q.val = win0_6.index t (1 : Fin 2) * 512 + b.val) :
    (iblk m c 4 t : Vec Ideal S1x512 .f32) (ix2 (0 : Fin 1) b)
      = (m ((c : Thread nD τ).loc main_arg4) : S2048.Idx → EReal) (ix1 q) := by
  obtain ⟨e0, e1⟩ := idx_pb t
  show (V m c main_v1 : S1x2048.Idx → EReal) (((cfg0.win 4).blk t).view.emb (ix2 (0 : Fin 1) b)) = _
  rw [pbias_row, ← shapeCast_a_1a_apply (m ((c : Thread nD τ).loc main_arg4)) shapeCasts_S2048_S1x2048 (0 : Fin 1) q]
  refine congrArg (shapeCast S1x2048 (m ((c : Thread nD τ).loc main_arg4)) shapeCasts_S2048_S1x2048 : S1x2048.Idx → EReal)
    (funext fun ax => Fin.ext ?_)
  match ax with
  | ⟨0, _⟩ => show win0_4.index t (0 : Fin 2) * 1 + 1 * 0 = 0; omega
  | ⟨1, _⟩ => show win0_4.index t (1 : Fin 2) * 512 + 1 * b.val = q.val; omega

/-- Entry `(a, 0)` of the learning-rate column's block is `lr(p)`. -/
theorem lr_block (c : Dev nD) (t : Fin cfg0.N) (a : Fin 512) (p : Fin 4096)
    (hp : p.val = win0_6.index t (0 : Fin 2) * 512 + a.val) :
    (iblk m c 5 t : Vec Ideal S512x1 .f32) (ix2 a (0 : Fin 1))
      = (m ((c : Thread nD τ).loc main_arg5) : S4096.Idx → EReal) (ix1 p) := by
  obtain ⟨e0, e1⟩ := idx_lr t
  show (V m c main_v2 : S4096x1.Idx → EReal) (((cfg0.win 5).blk t).view.emb (ix2 a (0 : Fin 1))) = _
  rw [lr_col, ← Cert.LibRowDot.shapeCast_a_a1_apply (m ((c : Thread nD τ).loc main_arg5)) shapeCasts_S4096_S4096x1 p (0 : Fin 1)]
  refine congrArg (shapeCast S4096x1 (m ((c : Thread nD τ).loc main_arg5)) shapeCasts_S4096_S4096x1 : S4096x1.Idx → EReal)
    (funext fun ax => Fin.ext ?_)
  match ax with
  | ⟨0, _⟩ => show win0_5.index t (0 : Fin 2) * 512 + 1 * a.val = p.val; omega
  | ⟨1, _⟩ => show win0_5.index t (1 : Fin 2) * 1 + 1 * 0 = 0; omega

end Cert.DenseStep.Blocks

end
-- ==== Proof.KernelValue.lean ====
/-
  The kernel's result array is the specification. At grid point `t` the body stores, at entry `(a, b)` of its `512×512`
  block, the layer formula of the blocks it loaded (Body.lean); each loaded entry is an entry of an argument array
  (Blocks.lean), and with `p = 512·(row block) + a`, `q = 512·(column block) + b` the formula becomes the
  specification's entry `(p, q)`, which is where the block's entry `(a, b)` lands in the `4096×2048` result. The
  `8×4` blocks tile the result (the block that holds `(p, q)` is `(p / 512, q / 512)`), so after the run the whole
  array is the specification's.
-/
import proofs.«182008_j88252987998616_1_alg».proof.Proof.Gen.KernelIdeal.Value
import proofs.«182008_j88252987998616_1_alg».proof.Proof.Spec
import proofs.«182008_j88252987998616_1_alg».proof.Proof.Body
import proofs.«182008_j88252987998616_1_alg».proof.Proof.Blocks
import Idealize.ShloMosaic.Lib.Pipeline.Value

noncomputable section

open scoped BigOperators

namespace Cert.DenseStep.Kern

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification at the argument arrays of device `c`. -/
abbrev result (c : Dev nD) : S4096x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the specification. -/
theorem wrote_back (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S512x2048) hz, View.ld_unit_zero (S := S1x512) hz, View.ld_unit_zero (S := S512x1) hz]
  refine funext fun (j : S512x512.Idx) => ?_
  obtain ⟨a, b, rfl⟩ : ∃ (a b : Fin 512), j = ix2 a b := ⟨j 0, j 1, eq_ix2 j⟩
  -- where the block's entry (a, b) lands in the array
  obtain ⟨p, hp⟩ : ∃ p : Fin 4096, p = ((cfg0.win 6).blk t).view.emb (ix2 a b) 0 := ⟨_, rfl⟩
  obtain ⟨q, hq⟩ : ∃ q : Fin 2048, q = ((cfg0.win 6).blk t).view.emb (ix2 a b) 1 := ⟨_, rfl⟩
  have hpv : p.val = win0_6.index t (0 : Fin 2) * 512 + a.val := by
    rw [hp]; show win0_6.index t (0 : Fin 2) * 512 + 1 * a.val = _; omega
  have hqv : q.val = win0_6.index t (1 : Fin 2) * 512 + b.val := by
    rw [hq]; show win0_6.index t (1 : Fin 2) * 512 + 1 * b.val = _; omega
  show k0_pay1 (F := Ideal) (iblk m c 0 t) (iblk m c 1 t) (iblk m c 2 t) (iblk m c 3 t) (iblk m c 4 t) (iblk m c 5 t) (ix2 a b)
    = entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb (ix2 a b) 0) (((cfg0.win 6).blk t).view.emb (ix2 a b) 1)
  rw [← hp, ← hq]
  refine (Body.stored_apply (iblk m c 0 t) (iblk m c 1 t) (iblk m c 2 t) (iblk m c 3 t) (iblk m c 4 t) (iblk m c 5 t) a b).trans ?_
  unfold entry
  rw [Blocks.b_block m c t b q hqv, Blocks.pb_block m c t b q hqv, Blocks.lr_block m c t a p hpv]
  refine congrArg₂ (· - ·) (congrArg₂ (· + ·) (Finset.sum_congr rfl fun k _ => ?_) rfl)
    (congrArg₂ (· * ·) rfl (congrArg₂ (· + ·) (Finset.sum_congr rfl fun k _ => ?_) rfl))
  · rw [Blocks.x_block m c t a k p hpv, Blocks.w_block m c t b k q hqv]
  · rw [Blocks.x_block m c t a k p hpv, Blocks.g_block m c t b k q hqv]

/-- An index of the result is in point `t`'s block iff each coordinate is in the block's range on its axis. -/
theorem mem_block (t : Fin cfg0.N) (i : S4096x2048.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v3).slice (win0_6.rect t)).set ↔ _
  rw [View.set_slice_whole, Rect.mem_set_unit]
  exact Iff.rfl

/-- Every index of the result is in some point's block: the one at (row / 512, column / 512). -/
theorem covered (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := Blocks.idx_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The result array after the run. -/
theorem final (c : Dev nD) : (dats m 0 c).arrAt 6 cfg0.N = result m c :=
  (dats m 0 c).arrAt_eq_of_cover 6 (result m c) (fun t _ => wrote_back m c t) covered

/-- The kernel's run: the result array at the specification of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.DenseStep.Kern

end
-- ==== Proof.lean ====
/-
  A dense layer with a per-sample learning-rate step, fused into one kernel, against its plain reference.

  With `x` the `4096×2048` batch, `w` the weights and `g` a previous gradient (both `2048×2048`, one output feature per
  row), `b` and `pb` the bias and a previous bias gradient, and `lr` one learning rate per sample, both programs compute

      out(p, q) = (∑ₖ x(p,k)·w(q,k) + b(q))  −  lr(p) · (∑ₖ x(p,k)·g(q,k) + pb(q)).

  The kernel tiles the result into `8×4` blocks of `512×512`, keeps the contracted axis whole in every block, narrows
  its three big operands to a shorter float format before the two products (the identity on the extended reals) and
  contracts rows against rows; the reference transposes `w` and `g` and contracts the transposed matrices' first axis.
  Entry by entry these are the same sums, the same additions, the same product and the same subtraction in the same
  order, so no law of the extended reals is needed, and the finiteness of the inputs is never used.

  Spec.lean states the function; RefValue.lean reads the reference's operations at an entry and finds it; Body.lean
  reads what the kernel's body stores at an entry of a block; Blocks.lean places each loaded block in the argument
  arrays; KernelValue.lean puts the blocks together into the whole result. Here: the three runs terminate without a
  fault and leave the arguments unchanged, and the two idealized runs end with equal results.
-/
import proofs.«182008_j88252987998616_1_alg».proof.Defs
import proofs.«182008_j88252987998616_1_alg».proof.Proof.Gen.Kernel
import proofs.«182008_j88252987998616_1_alg».proof.Proof.Gen.Kernel.Skeleton
import proofs.«182008_j88252987998616_1_alg».proof.Proof.Gen.Kernel.Launch
import proofs.«182008_j88252987998616_1_alg».proof.Proof.Gen.Kernel.Points
import proofs.«182008_j88252987998616_1_alg».proof.Proof.Gen.Kernel.Frame
import proofs.«182008_j88252987998616_1_alg».proof.Proof.Gen.KernelIdeal
import proofs.«182008_j88252987998616_1_alg».proof.Proof.Gen.KernelIdeal.Skeleton
import proofs.«182008_j88252987998616_1_alg».proof.Proof.Gen.KernelIdeal.Launch
import proofs.«182008_j88252987998616_1_alg».proof.Proof.Gen.KernelIdeal.Points
import proofs.«182008_j88252987998616_1_alg».proof.Proof.Gen.KernelIdeal.Frame
import proofs.«182008_j88252987998616_1_alg».proof.Proof.Gen.ReferenceIdeal
import proofs.«182008_j88252987998616_1_alg».proof.Proof.Gen.Pre_finite_inputs
import proofs.«182008_j88252987998616_1_alg».proof.Proof.Gen.KernelIdeal.Value
import proofs.«182008_j88252987998616_1_alg».proof.Proof.Gen.ReferenceIdeal.Run
import proofs.«182008_j88252987998616_1_alg».proof.Proof.Gen.ReferenceIdeal.Read
import proofs.«182008_j88252987998616_1_alg».proof.Proof.RefValue
import proofs.«182008_j88252987998616_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a sequence of whole-array operations: it runs, and writes only its own results. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the specification of its arguments (KernelValue.lean), the reference's at its
    last operation's value, which is the specification of ITS arguments (RefValue.lean); the arguments agree. -/
theorem algebraic : Cert.algebraic_KernelIdeal_ReferenceIdeal := by
  intro m ρ m' ρ' _ hagree
  refine ⟨fun c => Cert.DenseStep.Kern.result m c, Cert.DenseStep.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.DenseStep.Ref.stage_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
